-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8192x64 : Shape := ⟨2, ![8192, 64]⟩
abbrev S8192x8192 : Shape := ⟨2, ![8192, 8192]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S64x1024 : Shape := ⟨2, ![64, 1024]⟩
abbrev S1x1024 : Shape := ⟨2, ![1, 1024]⟩

abbrev nBuf : Space → Nat
  | .hbm => 2
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  bitsLt_bf16_f32 : FTy.bits .bf16 < FTy.bits .f32
  transposes_S1024x64_p1_0_S64x1024 : S1024x64.Transposes [1, 0] S64x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S64x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.BitsTiles.lean ====
/-
  The tiled run of the Gram kernel, for every float instance.

  The grid has 8 × 8 points. At point (i, j) the pipeline hands the body three staging buffers:
  a block of 1024 rows of the data matrix chosen by i, a block of 1024 rows of THE SAME matrix
  chosen by j, and a 1024 × 1024 tile of the result at block position (i, j). The body loads the
  two row blocks, computes one pure function of them (the generated skeleton's payload) and stores
  it over the whole tile; it also loads the tile once before storing, a value it never uses.

  Both input windows read one array, so that array's ownership cannot be handed to each window
  whole. It is split in two halves at the region's entry, one per window; reading needs only a
  positive share, and the output's array is held outright. After the last point the halves are
  what the launch theorem reads the unchanged array back through.

  What this module establishes: at every point each input window's current buffer holds the
  window's block of the array (whether the pipeline fetched it at that point or an earlier one),
  the body leaves the inputs as found and the tile at the payload of the two blocks, and hence
  every weakly fair run of the program terminates with each windowed array at the contents the
  write-backs of all 64 tiles compute — the data matrix unchanged.
-/
import proofs.«181697_j65481071397883_1_alg».proof.Proof.Gen.Kernel.Launch
import proofs.«181697_j65481071397883_1_alg».proof.Proof.Gen.Kernel.Skeleton
import proofs.«181697_j65481071397883_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and a window's block of them -/

/-- The program is the region alone, so the region finds every array as launched. -/
abbrev V (c : Dev nD) (b : Ref sig .tc) : Buf (Elt F) ((c : Thread nD τ).loc b) := m ((c : Thread nD τ).loc b)

/-- Window `w`'s block at grid point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window holds its block at every point, for any proof data over the launch contents whose
    body leaves the block in place: where the pipeline does not fetch, the block index has not moved. -/
theorem before_rows_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The column-block window likewise. -/
theorem before_cols_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the tile's buffer -/

/-- The whole 1024 × 64 block and the whole 1024 × 1024 tile as rectangles: what the body loads and stores through. -/
abbrev rBlk : Rect S1024x64 := Rect.unit (s := S1024x64) ![0, 0] S1024x64.size inb_S1024x64_S1024x64_0_0
abbrev rTile : Rect S1024x1024 := Rect.unit (s := S1024x1024) ![0, 0] S1024x1024.size inb_S1024x1024_S1024x1024_0_0

/-- The tile's buffer after the body, from the two row blocks: its one store, of the payload of the two loads. -/
def tileOut (x0 : Vec F S1024x64 .f32) (x1 : Vec F S1024x64 .f32) : Vec F S1024x1024 .f32 :=
  View.canon [⟨rTile, k0_pay1 (View.ld x0 rBlk) (View.ld x1 rBlk)⟩]

/-- The one store covers the tile. -/
theorem tile_cover (p0 : Vec F S1024x1024 .f32) (y : S1024x1024.Idx) :
    ∃ pc ∈ ([⟨rTile, p0⟩] : List (View.Piece (Elt F) S1024x1024 .f32)), y ∈ pc.1.set :=
  View.cover_of_tiled [⟨rTile, p0⟩] S1024x1024.size (by rfl) y

/-! ## The body's triple -/

set_option maxHeartbeats 1000000 in
/-- The body on whole staging memrefs — the row blocks' at contents `x0`, `x1`, the tile's at anything — runs to
    the continuation holding the row blocks' as they were and the tile's at `tileOut x0 x1`. -/
theorem sound_kernel (c : Dev nD) (E : Set ℕ) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileOut x0 x1)) -∗ K ⟨⟩))
      ⊢ wp frame (wpE (defs₀ (F := F)) Variants.none c none) E (cc0__gram_kernel i arg2 harg2 arg3 harg3 arg4 harg4) K := by
  simp only [cc0__gram_kernel_eq_skeleton]; unfold cc0__gram_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The proof data -/

/-- On core `c`: the arrays as launched; after the body at point `t` each row-block buffer at its block and the
    tile's at `tileOut` of the two blocks; nothing carried between points beside the buffers; nothing owed. The
    data matrix is read by two windows, each holding one half of it; the result's array is held outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOut (iblk m c 0 t) (iblk m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_tile (c : Dev nD) (t : Fin cfg0.N) : (dats m 0 c).after 2 t = tileOut (iblk m c 0 t) (iblk m c 1 t) := by dsimp only [dats]

theorem before_rows (c : Dev nD) (t : Fin cfg0.N) (d) : (dats m 0 c).before 0 t d = iblk m c 0 t :=
  before_rows_of m (dats m 0 c) (A_eq m c 0) (after_rows m c) t d
theorem before_cols (c : Dev nD) (t : Fin cfg0.N) (d) : (dats m 0 c).before 1 t d = iblk m c 1 t :=
  before_cols_of m (dats m 0 c) (A_eq m c 1) (after_cols m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the row-block buffers hold their blocks, so the triple applies; what is owed passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols]
  rw [show (dats m 0 c).Φ t.succ = (dats m 0 c).Φ t.castSucc from rfl,
    show (dats m 0 c).owesAt () t.succ = (dats m 0 c).owesAt () t.castSucc from rfl,
    after_rows, after_cols, after_tile]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The data matrix dealt to its two windows -/

/-- At the region's entry the two distinct buffers behind the windows' arrays, each held whole, make the proof
    data's arrays: the data matrix's ownership is cut into its two halves, one for the row-block window and one
    for the column-block window, and the result's array goes to its window outright. -/
theorem arrays_dealt (c : Dev nD) :
    (Pipeline.arrBufs spec0 c (V m c) : sProp 𝕄) ⊢ (dats m 0 c).arrays ((dats m 0 c).arrAt · 0) := by
  have two : (bigSep (Finset.univ.image (Pipeline.arrRef spec0)) fun b => (((c.tc : Thread nD τ).loc b) ↦{fullShare} V m c b : sProp 𝕄))
      = iprop((((c.tc : Thread nD τ).loc main_arg0) ↦{fullShare} V m c main_arg0) ∗ (((c.tc : Thread nD τ).loc main_v0) ↦{fullShare} V m c main_v0)) :=
    bigSep_eq_bigSepL_of_eq [main_arg0, main_v0] (by decide) (by decide) _
  unfold Pipeline.arrBufs Dat.arrays
  rw [two, bigSep_W0]
  rw [(arr_whole0 0).set_eq_univ, (arr_whole0 2).set_eq_univ]
  iintro ⟨Hx, Ho⟩
  ihave Hx2 := (pointsTo_share (PosShare.mem_left_op_right fullShare)).1 $$ Hx
  icases Hx2 with ⟨Hl, Hr⟩
  isplitl [Hl]; · iexact Hl
  isplitl [Hr]; · iexact Hr
  iexact Ho

/-! ## The run -/

set_option backward.isDefEq.respectTransparency.types false in
/-- At the compiled mesh, for any values, from any memory with zero counters: every weakly fair execution of the
    program on the TensorCores terminates, and in every final state the result's array holds what the 64
    write-backs compute from the proof data and the data matrix is as launched. -/
theorem run_main : θ_run defs (onTc (τ := τ) (main (F := F))) (s₀ m ρ) (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m)
    (hmain := fun c Q => by
      simp only [main, Prog.lift, Prog.bind_op, Prog.bind_ret]
      iintro ⟨Hk, Hb⟩; iapply Hk; iexact Hb)
    (hsplit := arrays_dealt m)
    (X := fun _ => iprop(emp)) (Y := fun _ => iprop(emp)) (Z := fun _ => iprop(emp))
    (hX := fun c => by rw [unscopedRest0_eq]; iintro -; isplitr <;> iempintro)
    (hin := fun c => by iintro -; iempintro)
    (hout := fun c => by rw [scopedRest0_eq]; iintro -; isplitr <;> iempintro)
    (QY := fun _ _ => True)
    (hY := fun c s' => by
      iintro ⟨-, -, HSI⟩; imodintro
      isplitr; · ipureintro; trivial
      iexact HSI)
    (hQ := fun _ h c => ⟨(h c).1 2, ((h c).1 0).trans ((dats m 0 c).arrAt_in 0 rfl _)⟩)

end Cert.Kernel.Tiles

end
-- ==== Proof.IdealTiles.lean ====
/-
  The tiled run of the Gram kernel, for every float instance.

  The grid has 8 × 8 points. At point (i, j) the pipeline hands the body three staging buffers:
  a block of 1024 rows of the data matrix chosen by i, a block of 1024 rows of THE SAME matrix
  chosen by j, and a 1024 × 1024 tile of the result at block position (i, j). The body loads the
  two row blocks, computes one pure function of them (the generated skeleton's payload) and stores
  it over the whole tile; it also loads the tile once before storing, a value it never uses.

  Both input windows read one array, so that array's ownership cannot be handed to each window
  whole. It is split in two halves at the region's entry, one per window; reading needs only a
  positive share, and the output's array is held outright. After the last point the halves are
  what the launch theorem reads the unchanged array back through.

  What this module establishes: at every point each input window's current buffer holds the
  window's block of the array (whether the pipeline fetched it at that point or an earlier one),
  the body leaves the inputs as found and the tile at the payload of the two blocks, and hence
  every weakly fair run of the program terminates with each windowed array at the contents the
  write-backs of all 64 tiles compute — the data matrix unchanged.
-/
import proofs.«181697_j65481071397883_1_alg».proof.Proof.Gen.KernelIdeal.Launch
import proofs.«181697_j65481071397883_1_alg».proof.Proof.Gen.KernelIdeal.Skeleton
import proofs.«181697_j65481071397883_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and a window's block of them -/

/-- The program is the region alone, so the region finds every array as launched. -/
abbrev V (c : Dev nD) (b : Ref sig .tc) : Buf (Elt F) ((c : Thread nD τ).loc b) := m ((c : Thread nD τ).loc b)

/-- Window `w`'s block at grid point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window holds its block at every point, for any proof data over the launch contents whose
    body leaves the block in place: where the pipeline does not fetch, the block index has not moved. -/
theorem before_rows_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The column-block window likewise. -/
theorem before_cols_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the tile's buffer -/

/-- The whole 1024 × 64 block and the whole 1024 × 1024 tile as rectangles: what the body loads and stores through. -/
abbrev rBlk : Rect S1024x64 := Rect.unit (s := S1024x64) ![0, 0] S1024x64.size inb_S1024x64_S1024x64_0_0
abbrev rTile : Rect S1024x1024 := Rect.unit (s := S1024x1024) ![0, 0] S1024x1024.size inb_S1024x1024_S1024x1024_0_0

/-- The tile's buffer after the body, from the two row blocks: its one store, of the payload of the two loads. -/
def tileOut (x0 : Vec F S1024x64 .f32) (x1 : Vec F S1024x64 .f32) : Vec F S1024x1024 .f32 :=
  View.canon [⟨rTile, k0_pay1 (View.ld x0 rBlk) (View.ld x1 rBlk)⟩]

/-- The one store covers the tile. -/
theorem tile_cover (p0 : Vec F S1024x1024 .f32) (y : S1024x1024.Idx) :
    ∃ pc ∈ ([⟨rTile, p0⟩] : List (View.Piece (Elt F) S1024x1024 .f32)), y ∈ pc.1.set :=
  View.cover_of_tiled [⟨rTile, p0⟩] S1024x1024.size (by rfl) y

/-! ## The body's triple -/

set_option maxHeartbeats 1000000 in
/-- The body on whole staging memrefs — the row blocks' at contents `x0`, `x1`, the tile's at anything — runs to
    the continuation holding the row blocks' as they were and the tile's at `tileOut x0 x1`. -/
theorem sound_kernel (c : Dev nD) (E : Set ℕ) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileOut x0 x1)) -∗ K ⟨⟩))
      ⊢ wp frame (wpE (defs₀ (F := F)) Variants.none c none) E (cc0__gram_kernel i arg2 harg2 arg3 harg3 arg4 harg4) K := by
  simp only [cc0__gram_kernel_eq_skeleton]; unfold cc0__gram_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The proof data -/

/-- On core `c`: the arrays as launched; after the body at point `t` each row-block buffer at its block and the
    tile's at `tileOut` of the two blocks; nothing carried between points beside the buffers; nothing owed. The
    data matrix is read by two windows, each holding one half of it; the result's array is held outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOut (iblk m c 0 t) (iblk m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_tile (c : Dev nD) (t : Fin cfg0.N) : (dats m 0 c).after 2 t = tileOut (iblk m c 0 t) (iblk m c 1 t) := by dsimp only [dats]

theorem before_rows (c : Dev nD) (t : Fin cfg0.N) (d) : (dats m 0 c).before 0 t d = iblk m c 0 t :=
  before_rows_of m (dats m 0 c) (A_eq m c 0) (after_rows m c) t d
theorem before_cols (c : Dev nD) (t : Fin cfg0.N) (d) : (dats m 0 c).before 1 t d = iblk m c 1 t :=
  before_cols_of m (dats m 0 c) (A_eq m c 1) (after_cols m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the row-block buffers hold their blocks, so the triple applies; what is owed passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols]
  rw [show (dats m 0 c).Φ t.succ = (dats m 0 c).Φ t.castSucc from rfl,
    show (dats m 0 c).owesAt () t.succ = (dats m 0 c).owesAt () t.castSucc from rfl,
    after_rows, after_cols, after_tile]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The data matrix dealt to its two windows -/

/-- At the region's entry the two distinct buffers behind the windows' arrays, each held whole, make the proof
    data's arrays: the data matrix's ownership is cut into its two halves, one for the row-block window and one
    for the column-block window, and the result's array goes to its window outright. -/
theorem arrays_dealt (c : Dev nD) :
    (Pipeline.arrBufs spec0 c (V m c) : sProp 𝕄) ⊢ (dats m 0 c).arrays ((dats m 0 c).arrAt · 0) := by
  have two : (bigSep (Finset.univ.image (Pipeline.arrRef spec0)) fun b => (((c.tc : Thread nD τ).loc b) ↦{fullShare} V m c b : sProp 𝕄))
      = iprop((((c.tc : Thread nD τ).loc main_arg0) ↦{fullShare} V m c main_arg0) ∗ (((c.tc : Thread nD τ).loc main_v0) ↦{fullShare} V m c main_v0)) :=
    bigSep_eq_bigSepL_of_eq [main_arg0, main_v0] (by decide) (by decide) _
  unfold Pipeline.arrBufs Dat.arrays
  rw [two, bigSep_W0]
  rw [(arr_whole0 0).set_eq_univ, (arr_whole0 2).set_eq_univ]
  iintro ⟨Hx, Ho⟩
  ihave Hx2 := (pointsTo_share (PosShare.mem_left_op_right fullShare)).1 $$ Hx
  icases Hx2 with ⟨Hl, Hr⟩
  isplitl [Hl]; · iexact Hl
  isplitl [Hr]; · iexact Hr
  iexact Ho

/-! ## The run -/

set_option backward.isDefEq.respectTransparency.types false in
/-- At the compiled mesh, for any values, from any memory with zero counters: every weakly fair execution of the
    program on the TensorCores terminates, and in every final state the result's array holds what the 64
    write-backs compute from the proof data and the data matrix is as launched. -/
theorem run_main : θ_run defs (onTc (τ := τ) (main (F := F))) (s₀ m ρ) (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m)
    (hmain := fun c Q => by
      simp only [main, Prog.lift, Prog.bind_op, Prog.bind_ret]
      iintro ⟨Hk, Hb⟩; iapply Hk; iexact Hb)
    (hsplit := arrays_dealt m)
    (X := fun _ => iprop(emp)) (Y := fun _ => iprop(emp)) (Z := fun _ => iprop(emp))
    (hX := fun c => by rw [unscopedRest0_eq]; iintro -; isplitr <;> iempintro)
    (hin := fun c => by iintro -; iempintro)
    (hout := fun c => by rw [scopedRest0_eq]; iintro -; isplitr <;> iempintro)
    (QY := fun _ _ => True)
    (hY := fun c s' => by
      iintro ⟨-, -, HSI⟩; imodintro
      isplitr; · ipureintro; trivial
      iexact HSI)
    (hQ := fun _ h c => ⟨(h c).1 2, ((h c).1 0).trans ((dats m 0 c).arrAt_in 0 rfl _)⟩)

end Cert.KernelIdeal.Tiles

end
-- ==== Proof.GramSpec.lean ====
/-
  The Gaussian (RBF) Gram matrix over the extended reals, as ONE function of the data matrix.

  For a matrix `x` of 8192 rows of 64 entries, entry (i, j) of the result is
      exp (-1/2 · max (‖x_i‖² + ‖x_j‖² − 2 ⟨x_i, x_j⟩, 0)),
  with ‖·‖² and ⟨·,·⟩ plain finite sums over the 64 entries of a row. The squared distance is
  written in its expanded form — two squared norms minus twice the inner product — because that
  is the arrangement both programs compute; no law of arithmetic is needed to identify them, so
  nothing here depends on the entries being finite.

  `core u v` is the entry as a function of the two rows alone; `gram` reads the rows off the
  whole matrix and `tile` off a pair of 1024-row blocks (a row block and a column block), which
  is how a 1024 × 1024 tile of the Gram matrix depends on the data.

  The three float literals (0, 2 and −1/2) are kept as their bit patterns: both programs hold the
  same words, so they are never evaluated.
-/
import Idealize.ShloMosaic.PureOps.Ideal
import Idealize.ShloMosaic.Lib.ValueIdx

noncomputable section

open scoped BigOperators

namespace Cert.Gram

open Idealize.ShloMosaic Idealize.ShloMosaic.ValueIdx

/-- The data matrix's shape, the Gram matrix's, a block of 1024 rows, and a 1024 × 1024 tile. -/
abbrev SX : Shape := ⟨2, ![8192, 64]⟩
abbrev SG : Shape := ⟨2, ![8192, 8192]⟩
abbrev SB : Shape := ⟨2, ![1024, 64]⟩
abbrev ST : Shape := ⟨2, ![1024, 1024]⟩

/-- One entry of the Gram matrix from the two rows `u`, `v` it compares:
    `exp (-1/2 · max ((0 + Σ u²) + (0 + Σ v²) − 2 · Σ u·v, 0))`. -/
def core (u v : Fin 64 → EReal) : EReal :=
  Ideal.exp (Ideal.ofBits .f32 0xBF000000#32 *
    max (((Ideal.ofBits .f32 0x00000000#32 + ∑ k : Fin 64, u k * u k)
          + (Ideal.ofBits .f32 0x00000000#32 + ∑ k : Fin 64, v k * v k))
        - Ideal.ofBits .f32 0x40000000#32 * ∑ k : Fin 64, u k * v k)
      (Ideal.ofBits .f32 0x00000000#32))

/-- Row `r` of a matrix with 64 columns. -/
def row {n : Nat} (x : (⟨2, ![n, 64]⟩ : Shape).Idx → EReal) (r : Fin n) : Fin 64 → EReal := fun k => x (ix2 r k)

/-- The Gram matrix of the whole data matrix: entry `j` compares rows `j 0` and `j 1`. -/
def gram (x : SX.Idx → EReal) : SG.Idx → EReal := fun j => core (row x (j 0)) (row x (j 1))

/-- A tile of the Gram matrix from a block `a` of rows and a block `b` of rows: entry `y` compares
    row `y 0` of `a` with row `y 1` of `b`. -/
def tile (a b : SB.Idx → EReal) : ST.Idx → EReal := fun y => core (row a (y 0)) (row b (y 1))

end Cert.Gram

end
-- ==== Proof.TilePayload.lean ====
/-
  The arithmetic of one tile, read entry by entry.

  The tile body takes two blocks `a`, `b` of 1024 rows of 64 entries and produces a 1024 × 1024
  block. Its steps: square each block entrywise and add up each row (two vectors of 1024 squared
  norms); stand the first vector up as a column and lay the second down as a row; multiply `a` by
  the transpose of `b` (the 1024 × 1024 block of inner products of rows, added into a block of
  zeros); spread the column and the row over the whole block and add them; subtract twice the
  inner products; clamp below at zero; multiply by −1/2; exponentiate.

  Read at the entry (p, q) this is
      exp (−1/2 · max ((0 + Σₖ a[p,k]²) + (0 + Σₖ b[q,k]²) − 2 · Σₖ a[p,k]·b[q,k], 0)),
  the entry the specification's `tile a b` has there. Every pointwise step reads through by
  unfolding; one lemma below reads each step that moves entries: the row sum, the vector stood up
  as a column, the two transposes, the column and the row spread over the block, and the product
  of the two blocks. The narrowing of the blocks to 16 bits before the product is the identity
  on extended reals.
-/
import proofs.«181697_j65481071397883_1_alg».proof.Proof.Gen.KernelIdeal.Skeleton
import proofs.«181697_j65481071397883_1_alg».proof.Proof.GramSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gram.Pay

open Idealize.ShloMosaic Idealize.ShloMosaic.ValueIdx Cert.KernelIdeal

/-! ## Steps that move entries, each read at coordinates -/

/-- A vector of length `a` stood up as an `a × 1` column reads, at `(i, u)`, the vector at `i`:
    both have row-major position `i`, since `i · 1 + 0 = i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread over an `a × b` block reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along each row of a 1024 × 64 block, read at row `r`: the sum over the 64 columns `k` of
    the block at `(r, k)`. (The accumulator word is the zero word and contributes nothing.) -/
theorem rowSum_apply (v : FVec Ideal S1024x64 .f32) (h : S1024x64.Reduces [1] S1024)
    (hφ : FKind.Formats FTy.f32) (hacc : (0x00000000#32 : BitVec 32) = FKind.add.neutral FTy.f32 hφ) (r : Fin 1024) :
    multiReduction (F := Ideal) .add [1] S1024 v 0x00000000#32 h hφ hacc (ix1 r) = ∑ k : Fin 64, v (ix2 r k) :=
  (Ideal.multiReduction_add_single v 0x00000000#32 h hφ hacc (ix1 r)).trans
    (Finset.sum_congr rfl fun k _ => congrArg v (funext fun a => Fin.ext (by
      match a with
      | ⟨0, _⟩ => rfl
      | ⟨1, _⟩ => rfl)))

/-! ## The product of the two blocks

The contraction pairs axis 1 of the left block with axis 0 of the right one; the result's axis 0
is the left block's axis 0 and its axis 1 the right block's axis 1. The four lemmas say which
coordinate each operand index takes on each of its axes; the product at `(p, q)` is then the sum
over the 64 values `k` of the contracted coordinate of left `(p, k)` times right `(k, q)`. -/

/-- Left operand, axis 0: the result's row coordinate. -/
theorem lhs_dot_0 (i : S1024x1024.Idx) (c : dot_S1024x64_S64x1024_S1024x1024_1_0_0_1_n_n.contr.Idx) :
    (dot_S1024x64_S64x1024_S1024x1024_1_0_0_1_n_n.lhsIdx i c 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl

/-- Left operand, axis 1: the contracted coordinate. -/
theorem lhs_dot_1 (i : S1024x1024.Idx) (c : dot_S1024x64_S64x1024_S1024x1024_1_0_0_1_n_n.contr.Idx) :
    (dot_S1024x64_S64x1024_S1024x1024_1_0_0_1_n_n.lhsIdx i c 1).val = (c ⟨0, by decide⟩).val :=
  dot_S1024x64_S64x1024_S1024x1024_1_0_0_1_n_n.lhsIdx_val_of_single rfl i c

/-- Right operand, axis 0: the contracted coordinate. -/
theorem rhs_dot_0 (i : S1024x1024.Idx) (c : dot_S1024x64_S64x1024_S1024x1024_1_0_0_1_n_n.contr.Idx) :
    (dot_S1024x64_S64x1024_S1024x1024_1_0_0_1_n_n.rhsIdx i c 0).val = (c ⟨0, by decide⟩).val :=
  dot_S1024x64_S64x1024_S1024x1024_1_0_0_1_n_n.rhsIdx_val_of_single rfl i c

/-- Right operand, axis 1: the result's column coordinate. -/
theorem rhs_dot_1 (i : S1024x1024.Idx) (c : dot_S1024x64_S64x1024_S1024x1024_1_0_0_1_n_n.contr.Idx) :
    (dot_S1024x64_S64x1024_S1024x1024_1_0_0_1_n_n.rhsIdx i c 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The product of a 1024 × 64 block `A` and a 64 × 1024 block `B`, added into zeros, read at
    `(p, q)`: `Σₖ A[p,k] · B[k,q]` over the 64 values of `k`. -/
theorem matmul_at (A : FVec Ideal S1024x64 .bf16) (B : FVec Ideal S64x1024 .bf16) (p q : Fin 1024) :
    matmul (F := Ideal) dot_S1024x64_S64x1024_S1024x1024_1_0_0_1_n_n none A B
        (constant (F := Ideal) S1024x1024 .f32 0x00000000#32) (ix2 p q)
      = ∑ k : Fin 64, A (ix2 p k) * B (ix2 k q) := by
  refine (Ideal.matmul_constant_zero_apply dot_S1024x64_S64x1024_S1024x1024_1_0_0_1_n_n none A B (ix2 p q)).trans ?_
  rw [← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 p q) ((contrEquiv1 dot_S1024x64_S64x1024_S1024x1024_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S1024x64_S64x1024_S1024x1024_1_0_0_1_n_n.rhsIdx (ix2 p q) ((contrEquiv1 dot_S1024x64_S64x1024_S1024x1024_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-! ## The three ingredients of an entry -/

/-- The squared norms of the rows of a block `v`, stood up as a column, read at `(r, u)`:
    `0 + Σₖ v[r,k]²` (the zero is the row sum's starting word, which adds nothing). -/
theorem sqCol_apply (v : FVec Ideal S1024x64 .f32) (h : S1024x64.Reduces [1] S1024)
    (hφ : FKind.Formats FTy.f32) (hacc : (0x00000000#32 : BitVec 32) = FKind.add.neutral FTy.f32 hφ)
    (hc : S1024.ShapeCasts S1024x1) (r : Fin 1024) (u : Fin 1) :
    shapeCast S1024x1 (multiReduction (F := Ideal) .add [1] S1024 (mulf v v) 0x00000000#32 h hφ hacc) hc (ix2 r u)
      = Ideal.ofBits .f32 0x00000000#32 + ∑ k : Fin 64, v (ix2 r k) * v (ix2 r k) :=
  (shapeCast_a_a1_apply _ hc r u).trans <| (rowSum_apply (mulf v v) h hφ hacc r).trans <| by
    rw [Ideal.ofBits_zero_f32, zero_add]; rfl

/-- The column of squared norms spread over the tile: entry `(p, q)` is the squared norm of row `p`. -/
theorem colPart_apply (v : FVec Ideal S1024x64 .f32) (h : S1024x64.Reduces [1] S1024)
    (hφ : FKind.Formats FTy.f32) (hacc : (0x00000000#32 : BitVec 32) = FKind.add.neutral FTy.f32 hφ)
    (hc : S1024.ShapeCasts S1024x1) (hb : S1024x1.Broadcasts S1024x1024) (p q : Fin 1024) :
    broadcastTo S1024x1024
        (shapeCast S1024x1 (multiReduction (F := Ideal) .add [1] S1024 (mulf v v) 0x00000000#32 h hφ hacc) hc) hb (ix2 p q)
      = Ideal.ofBits .f32 0x00000000#32 + ∑ k : Fin 64, v (ix2 p k) * v (ix2 p k) :=
  (broadcastTo_a1_ab_apply _ hb p q).trans (sqCol_apply v h hφ hacc hc p 0)

/-- The column of squared norms laid down as a row and spread over the tile: entry `(p, q)` is the
    squared norm of row `q`. -/
theorem rowPart_apply (v : FVec Ideal S1024x64 .f32) (h : S1024x64.Reduces [1] S1024)
    (hφ : FKind.Formats FTy.f32) (hacc : (0x00000000#32 : BitVec 32) = FKind.add.neutral FTy.f32 hφ)
    (hc : S1024.ShapeCasts S1024x1) (ht : S1024x1.Transposes [1, 0] S1x1024)
    (hb : S1x1024.Broadcasts S1024x1024) (p q : Fin 1024) :
    broadcastTo S1024x1024
        (transpose S1x1024 [1, 0]
          (shapeCast S1024x1 (multiReduction (F := Ideal) .add [1] S1024 (mulf v v) 0x00000000#32 h hφ hacc) hc) ht) hb (ix2 p q)
      = Ideal.ofBits .f32 0x00000000#32 + ∑ k : Fin 64, v (ix2 q k) * v (ix2 q k) :=
  (broadcastTo_1b_ab_apply _ hb p q).trans <|
    (transpose_ix2_apply _ ht (0 : Fin 1) q).trans <| sqCol_apply v h hφ hacc hc q 0

/-- The block of inner products: `a` times the transpose of `b`, read at `(p, q)`, is
    `Σₖ a[p,k] · b[q,k]` — the transposed right factor at `(k, q)` is `b` at `(q, k)`, and the
    narrowing of both factors changes no entry. -/
theorem prodPart_apply (a b : FVec Ideal S1024x64 .f32) (hlt : FTy.bits .bf16 < FTy.bits .f32)
    (ht : S1024x64.Transposes [1, 0] S64x1024) (p q : Fin 1024) :
    matmul (F := Ideal) dot_S1024x64_S64x1024_S1024x1024_1_0_0_1_n_n none
        (truncf .bf16 a hlt) (transpose S64x1024 [1, 0] (truncf .bf16 b hlt) ht)
        (constant (F := Ideal) S1024x1024 .f32 0x00000000#32) (ix2 p q)
      = ∑ k : Fin 64, a (ix2 p k) * b (ix2 q k) :=
  (matmul_at _ _ p q).trans
    (Finset.sum_congr rfl fun k _ => congrArg (a (ix2 p k) * ·) (transpose_ix2_apply _ ht k q))

/-! ## The entry -/

/-- The entry's outer arithmetic — add the two squared norms, subtract twice the inner product,
    clamp at zero, halve and negate, exponentiate — respects equality of the three ingredients. -/
theorem entry_congr {a b m a' b' m' : EReal} (ha : a = a') (hb : b = b') (hm : m = m') :
    Ideal.exp (Ideal.ofBits .f32 0xBF000000#32 *
        max ((a + b) - Ideal.ofBits .f32 0x40000000#32 * m) (Ideal.ofBits .f32 0x00000000#32))
      = Ideal.exp (Ideal.ofBits .f32 0xBF000000#32 *
        max ((a' + b') - Ideal.ofBits .f32 0x40000000#32 * m') (Ideal.ofBits .f32 0x00000000#32)) := by
  rw [ha, hb, hm]

/-- The tile body's result on the blocks `x0`, `x1` is the specification's tile of them: at `(p, q)`
    the spread column is `0 + Σₖ x0[p,k]²`, the spread row `0 + Σₖ x1[q,k]²`, the product
    `Σₖ x0[p,k] · x1[q,k]`, and the remaining steps act on that one entry. -/
theorem pay_is_tile (x0 x1 : Vec Ideal S1024x64 .f32) :
    Gen.k0_pay1 (F := Ideal) x0 x1 = Cert.Gram.tile x0 x1 := by
  funext y
  obtain ⟨p, q, rfl⟩ : ∃ (p : Fin 1024) (q : Fin 1024), y = ix2 p q := ⟨y 0, y 1, eq_ix2 y⟩
  have hA := colPart_apply x0 Gen.reduces_S1024x64_S1024 (.inl rfl) rfl Gen.shapeCasts_S1024_S1024x1
    Gen.broadcasts_S1024x1_S1024x1024 p q
  have hB := rowPart_apply x1 Gen.reduces_S1024x64_S1024 (.inl rfl) rfl Gen.shapeCasts_S1024_S1024x1
    Gen.transposes_S1024x1_p1_0_S1x1024 Gen.broadcasts_S1x1024_S1024x1024 p q
  have hM := prodPart_apply x0 x1 Gen.bitsLt_bf16_f32 Gen.transposes_S1024x64_p1_0_S64x1024 p q
  have e := entry_congr hA hB hM
  exact e

end Cert.Gram.Pay

end
-- ==== Proof.IdealGram.lean ====
/-
  From tiles to the whole Gram matrix, at the exact (extended-real) reading of the kernel.

  Grid point t = (i, j) writes back the 1024 × 1024 tile at block position (i, j) of the result.
  Its row-block window sits at block row i of the data matrix and its column-block window at block
  row j of the same matrix, both at block column 0 (a block spans all 64 columns). So entry (p, q)
  of that tile compares row 1024·i + p with row 1024·j + q of the data matrix, which is entry
  (1024·i + p, 1024·j + q) of the Gram matrix of the whole data: every tile written back is the
  restriction of ONE whole-array function to the tile's rectangle. The 64 tiles cover the result
  (the point for entry (r, s) is the one with block indices r / 1024 and s / 1024), hence after
  the run the result's array is the Gram matrix of the data matrix as launched.
-/
import proofs.«181697_j65481071397883_1_alg».proof.Proof.IdealTiles
import proofs.«181697_j65481071397883_1_alg».proof.Proof.TilePayload
import proofs.«181697_j65481071397883_1_alg».proof.Proof.GramSpec
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Tiles
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem origin_zero : (![0, 0] : Fin 2 → Nat) = fun _ => 0 := funext fun a => by fin_cases a <;> rfl

/-- The printed index maps, decided over the 64 grid points: the row-block window's block row is the tile's block
    row, the column-block window's block row is the tile's block column, both input windows sit at block column 0,
    and the tile's block indices stay below 8. -/
theorem block_indices : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every block position of the 8 × 8 tiling is some grid point's. -/
theorem every_tile : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- WHAT POINT `t` WRITES BACK is the tile at `t`'s block position of the Gram matrix of the data matrix as launched. -/
theorem tile_written (c : Dev nD) (t : Fin cfg0.N) :
    (dats (F := Ideal) m 0 c).flushed 2 t
      = ((cfg0.win 2).blk t).view.read (Elt Ideal) (Cert.Gram.gram (m ((c : Thread nD τ).loc main_arg0))) := by
  show (cfg0.win 2).cut (grid0.coords t) ((dats m 0 c).after 2 t) = _
  rw [after_tile]
  unfold tileOut
  rw [View.canon_unit_zero origin_zero]
  simp only [View.ld_unit_zero (S := S1024x64) origin_zero]
  rw [Cert.Gram.Pay.pay_is_tile]
  obtain ⟨e0, e1, e2, e3, -, -⟩ := block_indices t
  funext y
  show Cert.Gram.core (Cert.Gram.row (iblk m c 0 t) (y 0)) (Cert.Gram.row (iblk m c 1 t) (y 1))
    = Cert.Gram.core (Cert.Gram.row (m ((c : Thread nD τ).loc main_arg0)) ((((cfg0.win 2).blk t).view.emb y) 0))
        (Cert.Gram.row (m ((c : Thread nD τ).loc main_arg0)) ((((cfg0.win 2).blk t).view.emb y) 1))
  have hrow : Cert.Gram.row (iblk m c 0 t) (y 0)
      = Cert.Gram.row (m ((c : Thread nD τ).loc main_arg0)) ((((cfg0.win 2).blk t).view.emb y) 0) := by
    funext k
    show m ((c : Thread nD τ).loc main_arg0) (((cfg0.win 0).blk t).view.emb (ix2 (y 0) k))
      = m ((c : Thread nD τ).loc main_arg0) (ix2 ((((cfg0.win 2).blk t).view.emb y) 0) k)
    refine congrArg _ (funext fun a => Fin.ext ?_)
    match a with
    | ⟨0, _⟩ => show win0_0.index t (0 : Fin 2) * 1024 + 1 * (y 0).val = win0_2.index t (0 : Fin 2) * 1024 + 1 * (y 0).val; omega
    | ⟨1, _⟩ => show win0_0.index t (1 : Fin 2) * 64 + 1 * k.val = k.val; omega
  have hcol : Cert.Gram.row (iblk m c 1 t) (y 1)
      = Cert.Gram.row (m ((c : Thread nD τ).loc main_arg0)) ((((cfg0.win 2).blk t).view.emb y) 1) := by
    funext k
    show m ((c : Thread nD τ).loc main_arg0) (((cfg0.win 1).blk t).view.emb (ix2 (y 1) k))
      = m ((c : Thread nD τ).loc main_arg0) (ix2 ((((cfg0.win 2).blk t).view.emb y) 1) k)
    refine congrArg _ (funext fun a => Fin.ext ?_)
    match a with
    | ⟨0, _⟩ => show win0_1.index t (0 : Fin 2) * 1024 + 1 * (y 1).val = win0_2.index t (1 : Fin 2) * 1024 + 1 * (y 1).val; omega
    | ⟨1, _⟩ => show win0_1.index t (1 : Fin 2) * 64 + 1 * k.val = k.val; omega
  rw [hrow, hcol]

/-- An entry of the result lies in point `t`'s tile iff each coordinate lies in the tile's range on its axis. -/
theorem mem_tile (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The tiles cover the result: entry (r, s) lies in the tile at block position (r / 1024, s / 1024). -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := every_tile ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT after the run is the Gram matrix of the data matrix as launched. -/
theorem result_is_gram (c : Dev nD) :
    (dats (F := Ideal) m 0 c).arrAt 2 cfg0.N = Cert.Gram.gram (m ((c : Thread nD τ).loc main_arg0)) :=
  (dats m 0 c).arrAt_eq_of_cover 2 _ (fun t _ => tile_written m c t) tiles_cover

/-- The run re-posted: the result's array at the Gram matrix of the data, the data unchanged. -/
theorem run : θ_run defs (onTc (τ := τ) (main (F := Ideal))) ⟨m, fun _ => 0, ρ⟩ fun r => ∀ c : Dev nD,
      r.2.mem ((c : Thread nD τ).loc main_v0) = Cert.Gram.gram (m ((c : Thread nD τ).loc main_arg0))
      ∧ r.2.mem ((c : Thread nD τ).loc main_arg0) = m ((c : Thread nD τ).loc main_arg0) :=
  (θ_run defs _ _).mono (fun r h c => ⟨(h c).1.trans (result_is_gram m c), (h c).2⟩) (run_main m ρ)

end Cert.KernelIdeal.Whole

end
-- ==== Proof.RefIsGram.lean ====
/-
  The reference program computes the Gaussian Gram matrix of the specification.

  Entry (p, q) of the reference's last stage is read back through its operations: the exponential
  of -1/2 times the maximum with 0 of (row-norm of p, broadcast along columns) + (row-norm of q,
  broadcast along rows) - 2 * (the product of the matrix with its transpose at (p, q)). Each squared
  norm is the initial word 0 plus the sum over the 64 columns of the squared entry; the product
  with the transpose at (p, q) is the sum over k of entry (p, k) times entry (q, k). These are
  term by term the three sums of the specification's `core`, once the composed index maps of the
  broadcasts, the transpose and the contraction are identified with (p, k) and (q, k).
-/
import proofs.«181697_j65481071397883_1_alg».proof.Proof.Gen.ReferenceIdeal.Read
import proofs.«181697_j65481071397883_1_alg».proof.Proof.GramSpec

noncomputable section

open scoped BigOperators

namespace Cert.Gram.Ref

open Cert.ReferenceIdeal Cert.ReferenceIdeal.Gen Cert.ReferenceIdeal.Read
  Idealize.ShloMosaic Idealize.ShloMosaic.ValueIdx

/-- The row read by the first squared norm: broadcasting a vector along columns and then
    reducing over the 64 entries reads entry (p, k). -/
theorem idx_norm_row (p q : Fin 8192) (k : Fin 64) :
    idx_main_v1 (idx_main_v2 (idx_main_v4 (ix2 p q))) k = ix2 p k :=
  funext fun a => Fin.ext (by match a with | ⟨0, _⟩ => rfl | ⟨1, _⟩ => rfl)

/-- The row read by the second squared norm: broadcasting a vector along rows reads entry (q, k). -/
theorem idx_norm_col (p q : Fin 8192) (k : Fin 64) :
    idx_main_v1 (idx_main_v3 (idx_main_v5 (ix2 p q))) k = ix2 q k :=
  funext fun a => Fin.ext (by match a with | ⟨0, _⟩ => rfl | ⟨1, _⟩ => rfl)

/-- The left factor of the contraction at (p, q) and summand k is entry (p, k). -/
theorem idx_dot_left (p q : Fin 8192) (k : Fin 64) :
    lidx_main_v8 (ix2 p q) k = ix2 p k :=
  funext fun a => Fin.ext (by match a with | ⟨0, _⟩ => rfl | ⟨1, _⟩ => rfl)

/-- The right factor is the transpose at (k, q), that is entry (q, k). -/
theorem idx_dot_right (p q : Fin 8192) (k : Fin 64) :
    idx_main_v7 (ridx_main_v8 (ix2 p q) k) = ix2 q k :=
  funext fun a => Fin.ext (by match a with | ⟨0, _⟩ => rfl | ⟨1, _⟩ => rfl)

/-- The reference's last stage, as a function of the whole data matrix, is the Gram matrix. -/
theorem ref_is_gram (x : (⟨S8192x64, .f32⟩ : BufTy).Contents (Elt Ideal)) :
    val_main_v16 (F := Ideal) x = Cert.Gram.gram x := by
  funext j
  obtain ⟨p, q, rfl⟩ : ∃ (p : Fin 8192) (q : Fin 8192), j = ix2 p q := ⟨j 0, j 1, eq_ix2 j⟩
  simp only [val_main_v16_apply, val_main_v15_apply, val_main_v14_apply, val_main_cst_2_apply,
    val_main_v13_apply, val_main_v12_apply, val_main_cst_1_apply, val_main_v11_apply,
    val_main_v10_apply, val_main_v9_apply, val_main_cst_0_apply, val_main_v8_apply,
    val_main_v7_apply, val_main_v6_apply, val_main_v5_apply, val_main_v4_apply,
    val_main_v3_apply, val_main_v2_apply, val_main_v1_apply, val_main_cst_apply,
    val_main_v0_apply, idx_norm_row, idx_norm_col, idx_dot_left, idx_dot_right,
    Ideal.hostUnary_exp_def, Ideal.mulf_def, Ideal.addf_def, Ideal.subf_def,
    Ideal.maximumf_def, Ideal.ofBits_def]
  rfl

end Cert.Gram.Ref

end
-- ==== Proof.lean ====
/-
  The certificate of the tiled Gaussian Gram kernel against its reference.

  Both programs compute, for a data matrix x of 8192 rows of 64 entries, the 8192 × 8192 matrix
      G[i, j] = exp (-1/2 · max (‖x_i‖² + ‖x_j‖² − 2 ⟨x_i, x_j⟩, 0)).
  The reference does it with whole-array operations; the kernel walks an 8 × 8 grid of
  1024 × 1024 tiles, each computed from a block of 1024 rows (the tile's rows) and a block of 1024
  rows (the tile's columns) of the same matrix, the inner products taken by the matrix unit on
  operands narrowed to 16 bits.

  Over the extended reals narrowing is the identity and both sides form the same three finite
  sums per entry and combine them with the same operations in the same order, on the same three
  literal words (0, 2, −1/2). So the two results are equal entry by entry with no law of
  arithmetic beyond reindexing a tile's entry as an entry of the whole matrix; the precondition
  (finite inputs) is never opened.

  The frames: the reference is host operations only, and its run read back gives termination and
  unchanged arguments. The kernel's two input windows read ONE array, so the array's ownership is
  dealt to them in two halves at the region's entry; the run then terminates with the data
  matrix unchanged and the result's array at what the 64 write-backs compute, for the word-level
  program and for its exact reading alike. The idealization rewrote nothing, so the conjunct that
  relates the program to its exact reading is trivial.
-/
import proofs.«181697_j65481071397883_1_alg».proof.Defs
import proofs.«181697_j65481071397883_1_alg».proof.Proof.Gen.Kernel
import proofs.«181697_j65481071397883_1_alg».proof.Proof.Gen.KernelIdeal
import proofs.«181697_j65481071397883_1_alg».proof.Proof.Gen.ReferenceIdeal
import proofs.«181697_j65481071397883_1_alg».proof.Proof.Gen.Pre_finite_inputs
import proofs.«181697_j65481071397883_1_alg».proof.Proof.Gen.ReferenceIdeal.Run
import proofs.«181697_j65481071397883_1_alg».proof.Proof.Gen.ReferenceIdeal.Read
import proofs.«181697_j65481071397883_1_alg».proof.Proof.BitsTiles
import proofs.«181697_j65481071397883_1_alg».proof.Proof.IdealGram
import proofs.«181697_j65481071397883_1_alg».proof.Proof.RefIsGram
import Idealize.ShloMosaic.Adequacy
import Idealize.ShloMosaic.Init

noncomputable section

namespace Cert.Proof

open Idealize.ShloMosaic Idealize.ShloMosaic.TcCoe Idealize.SL.Sem

/-- The word-level kernel runs to the end and leaves the data matrix as launched. -/
theorem frame_bits : Cert.frame_Kernel := fun m ρ _ =>
  (θ_run Cert.Kernel.defs _ _).mono (fun _ h c => (h c).2) (Cert.Kernel.Tiles.run_main (F := Bits) m ρ)

/-- So does its exact reading. -/
theorem frame_exact : Cert.frame_KernelIdeal := fun m ρ _ =>
  (θ_run Cert.KernelIdeal.defs _ _).mono (fun _ h c => (h c).2) (Cert.KernelIdeal.Tiles.run_main (F := Ideal) m ρ)

/-- The reference is host operations: its run read back, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the data matrix, the kernel's exact reading ends with its result at the Gram
    matrix of the data (the tiles put together) and the reference ends with its last stage, which is the same
    Gram matrix; both leave the data unchanged. -/
theorem algebraic : Cert.algebraic_KernelIdeal_ReferenceIdeal := by
  intro m ρ m' ρ' _ hagree
  refine ⟨fun c => Cert.Gram.gram (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Gram.Ref.ref_is_gram, hagree c]

theorem claim : Cert.Claim := ⟨Cert.Kernel.Gen.facts, Cert.KernelIdeal.Gen.facts, Cert.ReferenceIdeal.Gen.facts, Cert.Pre_finite_inputs.Gen.facts,
  frame_bits, frame_exact, frame_ref, preserves, algebraic⟩

end Cert.Proof

end
